-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S50000x128 .f32) (main_arg1 : IVec S2x800000 32) (main_arg2 : FVec F S2x128x128 .f32) (main_arg3 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S5000x128 : Shape := ⟨2, ![5000, 128]⟩
abbrev S850000x128 : Shape := ⟨2, ![850000, 128]⟩
abbrev S1x128 : Shape := ⟨2, ![1, 128]⟩
abbrev S128 : Shape := ⟨1, ![128]⟩

abbrev nBuf : Space → Nat
  | .hbm => 82
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x128x128, .f32⟩
  | .hbm, ⟨3, _⟩ => ⟨S2x128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S850000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S850000x1, .f32⟩
  | .hbm, ⟨38, _⟩ => ⟨S1x128x128, .f32⟩
  | .hbm, ⟨39, _⟩ => ⟨S128x128, .f32⟩
  | .hbm, ⟨40, _⟩ => ⟨S50000x128, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x128, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S1x128x128, .f32⟩
  | .hbm, ⟨61, _⟩ => ⟨S128x128, .f32⟩
  | .hbm, ⟨62, _⟩ => ⟨S50000x128, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x128, .f32⟩
  | .hbm, ⟨72, _⟩ => ⟨S850000x128, .f32⟩
  | .hbm, ⟨73, _⟩ => ⟨S850000x128, .f32⟩
  | .hbm, ⟨74, _⟩ => ⟨S_, .f32⟩
  | .hbm, ⟨75, _⟩ => ⟨S50000x128, .f32⟩
  | .hbm, ⟨76, _⟩ => ⟨S850000x1, .i32⟩
  | .hbm, ⟨77, _⟩ => ⟨S50000x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_c_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  slices_S2x128x128_S1x128x128_1_0_0 : S2x128x128.Slices ![1, 0, 0] S1x128x128
  slices_S2x128_S1x128_1_0 : S2x128.Slices ![1, 0] S1x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x128x128 : Shape := ⟨3, ![2, 128, 128]⟩
abbrev S2x128 : Shape := ⟨2, ![2, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x128x128, .f32⟩
  | .hbm, ⟨3, _⟩ => ⟨S2x128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S850000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S850000x1, .f32⟩
  | .hbm, ⟨38, _⟩ => ⟨S1x128x128, .f32⟩
  | .hbm, ⟨39, _⟩ => ⟨S128x128, .f32⟩
  | .hbm, ⟨40, _⟩ => ⟨S50000x128, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x128, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_cst : Ref sig .tc := ⟨.hbm, 61, rfl⟩
abbrev main_call0_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_call1_cst : Ref sig .tc := ⟨.hbm, 87, rfl⟩
abbrev main_call1_v0 : Ref sig .tc := ⟨.hbm, 88, rfl⟩
abbrev main_v69 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S2x128x128_S1x128x128_0_0_0 : S2x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Pay.lean ====
/-
  What each kernel body stores, read at one entry of its block at the ideal values.

  The matmul bodies round both operands to bf16 first; at the ideal values a change of float format is the identity,
  so the stored block's entry (p, q) is the sum over `k` of `x (p, k) * w (k, q)` of the two loaded blocks. The
  bias bodies broadcast the loaded bias row along the rows, add it to the loaded block and take the maximum with the
  zero constant: entry (p, q) is `max (a (p, q) + b (0, q)) 0`.
-/
import proofs.«131243_j43903155699851_1_alg».proof.Proof.Gen.KernelIdeal.Skeleton
import proofs.«131243_j43903155699851_1_alg».proof.Proof.LibDot
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The broadcast of a `[1, 128]` row to `[5000, 128]` reads the row at the column. -/
theorem bcastRow (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The first layer's product block. -/
theorem mm0 (xb : Vec Ideal S5000x128 .f32) (w : Vec Ideal S128x128 .f32) (p : Fin 5000) (q : Fin 128) :
    k0_pay1 (F := Ideal) xb w (ix2 p q) = ∑ k : Fin 128, xb (ix2 p k) * w (ix2 k q) := by
  unfold k0_pay1
  rw [shapeCast_self]
  exact Cert.LibDot.matmul_10_zero_apply dot_S5000x128_S128x128_S5000x128_1_0_0_1_n_n rfl rfl rfl rfl rfl rfl none _ _ p q

/-- The second layer's product block. -/
theorem mm2 (xb : Vec Ideal S5000x128 .f32) (w : Vec Ideal S128x128 .f32) (p : Fin 5000) (q : Fin 128) :
    k2_pay1 (F := Ideal) xb w (ix2 p q) = ∑ k : Fin 128, xb (ix2 p k) * w (ix2 k q) := by
  unfold k2_pay1
  rw [shapeCast_self, shapeCast_self]
  exact Cert.LibDot.matmul_10_zero_apply dot_S5000x128_S128x128_S5000x128_1_0_0_1_n_n rfl rfl rfl rfl rfl rfl none _ _ p q

/-- The first layer's bias-and-clamp block. -/
theorem br1 (b : Vec Ideal S1x128 .f32) (a : Vec Ideal S5000x128 .f32) (p : Fin 5000) (q : Fin 128) :
    k1_pay1 (F := Ideal) b a (ix2 p q) = max (a (ix2 p q) + b (ix2 (0 : Fin 1) q)) 0 := by
  unfold k1_pay1
  rw [shapeCast_self, shapeCast_self, shapeCast_self]
  show max (a (ix2 p q) + broadcastTo S5000x128 b broadcasts_S1x128_S5000x128 (ix2 p q)) (Ideal.ofBits .f32 0x00000000#32) = _
  rw [bcastRow, Ideal.ofBits_zero_f32]

/-- The second layer's bias-and-clamp block. -/
theorem br3 (b : Vec Ideal S1x128 .f32) (a : Vec Ideal S5000x128 .f32) (p : Fin 5000) (q : Fin 128) :
    k3_pay1 (F := Ideal) b a (ix2 p q) = max (a (ix2 p q) + b (ix2 (0 : Fin 1) q)) 0 := by
  unfold k3_pay1
  rw [shapeCast_self, shapeCast_self, shapeCast_self]
  show max (a (ix2 p q) + broadcastTo S5000x128 b broadcasts_S1x128_S5000x128 (ix2 p q)) (Ideal.ofBits .f32 0x00000000#32) = _
  rw [bcastRow, Ideal.ofBits_zero_f32]

end Cert.KernelIdeal.Pay

end
-- ==== Proof.Layer.lean ====
/-
  One graph-convolution layer's two dense stages as functions of whole arrays, at the ideal values.

  `transform x w` is the node features times the layer's weight matrix: entry (n, j) is the sum over the feature
  coordinate `k` of `x (n, k) * w (k, j)`. `biasRelu a b` adds the bias row to every node's aggregated row and clamps at
  zero from below: entry (n, j) is `max (a (n, j) + b (0, j)) 0`. Between the two stands the sparse aggregation over the
  edges, which both programs carry out by the same host operations and which no statement here opens.
-/
import Idealize.ShloMosaic.Lib.ValueIdx
import Idealize.ShloMosaic.PureOps.Ideal.Laws

noncomputable section

open scoped BigOperators

namespace Cert.Layer

open Idealize.ShloMosaic Idealize.ShloMosaic.ValueIdx

/-- Node features `[50000, 128]` times a weight matrix `[128, 128]`. -/
def transform (x : FVec Ideal ⟨2, ![50000, 128]⟩ .f32) (w : FVec Ideal ⟨2, ![128, 128]⟩ .f32) :
    FVec Ideal ⟨2, ![50000, 128]⟩ .f32 :=
  fun i => ∑ k : Fin 128, x (ix2 (⟨(i 0).val, (i 0).isLt⟩ : Fin 50000) k) * w (ix2 k (⟨(i 1).val, (i 1).isLt⟩ : Fin 128))

/-- At the entry of node `n` and feature `j`. -/
theorem transform_ix2 (x : FVec Ideal ⟨2, ![50000, 128]⟩ .f32) (w : FVec Ideal ⟨2, ![128, 128]⟩ .f32)
    (n : Fin 50000) (j : Fin 128) :
    transform x w (ix2 n j) = ∑ k : Fin 128, x (ix2 n k) * w (ix2 k j) := rfl

/-- The bias row `[1, 128]` added to every row of `[50000, 128]`, then the maximum with zero. -/
def biasRelu (a : FVec Ideal ⟨2, ![50000, 128]⟩ .f32) (b : FVec Ideal ⟨2, ![1, 128]⟩ .f32) :
    FVec Ideal ⟨2, ![50000, 128]⟩ .f32 :=
  fun i => max (a i + b (ix2 (0 : Fin 1) (⟨(i 1).val, (i 1).isLt⟩ : Fin 128))) 0

/-- At the entry of node `n` and feature `j`. -/
theorem biasRelu_ix2 (a : FVec Ideal ⟨2, ![50000, 128]⟩ .f32) (b : FVec Ideal ⟨2, ![1, 128]⟩ .f32)
    (n : Fin 50000) (j : Fin 128) :
    biasRelu a b (ix2 n j) = max (a (ix2 n j) + b (ix2 (0 : Fin 1) j)) 0 := rfl

end Cert.Layer

end
-- ==== Proof.Region0.lean ====
/-
  The first layer's dense transform as a pipelined region: ten grid points, point `t` reading rows
  `5000 t … 5000 t + 4999` of the node features and the whole weight matrix, and writing back the same rows of the
  product. Whatever the buffers hold when the region is entered (`V`), the product array ends holding
  `Layer.transform` of the feature array and the weight array as entered: each point writes back the restriction of that
  one function to its rows (row `5000 t + p` of the product needs only row `5000 t + p` of the features), and the ten
  blocks of rows cover the array.
-/
import proofs.«131243_j43903155699851_1_alg».proof.Proof.Gen.KernelIdeal.Frame
import proofs.«131243_j43903155699851_1_alg».proof.Proof.Pay
import proofs.«131243_j43903155699851_1_alg».proof.Proof.Layer

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature block moves with the product block along the rows, the weight block
    stays at the origin, and there are ten row blocks. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The node features and the weight matrix as the region finds them. -/
abbrev xarr (c : Dev nD) : Vec Ideal S50000x128 .f32 := V c main_arg0
abbrev warr (c : Dev nD) : Vec Ideal S128x128 .f32 := V c main_v29

/-- What point `t` writes back is block `t` of the product of the arrays as entered. -/
theorem flushed_eq (c : Dev nD) (t : Fin cfg0.N) :
    (dat0 V c).flushed 2 t = ((cfg0.win 2).blk t).view.read (Elt Ideal) (Cert.Layer.transform (xarr V c) (warr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = Cert.Layer.transform (xarr V c) (warr V c) (((cfg0.win 2).blk t).view.emb (ix2 p q))
  refine (Pay.mm0 (iblk0 V c 0 t) (iblk0 V c 1 t) p q).trans ?_
  have h0 : ∀ k : Fin 128, ((cfg0.win 0).blk t).view.emb (ix2 p k)
      = ix2 (⟨(((cfg0.win 2).blk t).view.emb (ix2 p q) 0).val, (((cfg0.win 2).blk t).view.emb (ix2 p q) 0).isLt⟩ : Fin 50000) k := by
    intro k; funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q)
      = ix2 k (⟨(((cfg0.win 2).blk t).view.emb (ix2 p q) 1).val, (((cfg0.win 2).blk t).view.emb (ix2 p q) 1).isLt⟩ : Fin 128) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  show ∑ k : Fin 128, xarr V c (((cfg0.win 0).blk t).view.emb (ix2 p k)) * warr V c (((cfg0.win 1).blk t).view.emb (ix2 k q)) = _
  unfold Cert.Layer.transform
  exact Finset.sum_congr rfl fun k _ => by rw [h0 k, h1 k]

/-- An index of the product array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` lies in the block of the point whose row block is `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The product array after the region. -/
theorem final (c : Dev nD) : (dat0 V c).arrAt 2 cfg0.N = Cert.Layer.transform (xarr V c) (warr V c) :=
  (dat0 V c).arrAt_eq_of_cover 2 _ (fun t _ => flushed_eq V c t) cover

end Cert.KernelIdeal.Region0

end
-- ==== Proof.Region1.lean ====
/-
  The first layer's bias-and-clamp as a pipelined region: ten grid points, point `t` reading rows
  `5000 t … 5000 t + 4999` of the aggregated array and the whole bias row, and writing back the same rows of
  `max (a + b) 0`. Whatever the buffers hold when the region is entered (`V`), the output array ends holding
  `Layer.biasRelu` of the aggregated array and the bias row as entered: the operation is entry by entry, so each point
  writes back the restriction of that one function to its rows, and the ten blocks of rows cover the array.
-/
import proofs.«131243_j43903155699851_1_alg».proof.Proof.Gen.KernelIdeal.Frame
import proofs.«131243_j43903155699851_1_alg».proof.Proof.Pay
import proofs.«131243_j43903155699851_1_alg».proof.Proof.Layer

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated block moves with the output block along the rows, the bias row
    stays at the origin, and there are ten row blocks. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The aggregated array and the bias row as the region finds them. -/
abbrev aarr (c : Dev nD) : Vec Ideal S50000x128 .f32 := V c main_v42
abbrev barr (c : Dev nD) : Vec Ideal S1x128 .f32 := V c main_v45

/-- What point `t` writes back is block `t` of the biased and clamped array. -/
theorem flushed_eq (c : Dev nD) (t : Fin cfg1.N) :
    (dat1 V c).flushed 2 t = ((cfg1.win 2).blk t).view.read (Elt Ideal) (Cert.Layer.biasRelu (aarr V c) (barr V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k1_pay1 (F := Ideal) (iblk1 V c 1 t) (iblk1 V c 0 t) (ix2 p q) = Cert.Layer.biasRelu (aarr V c) (barr V c) (((cfg1.win 2).blk t).view.emb (ix2 p q))
  refine (Pay.br1 (iblk1 V c 1 t) (iblk1 V c 0 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) (⟨(((cfg1.win 2).blk t).view.emb (ix2 p q) 1).val, (((cfg1.win 2).blk t).view.emb (ix2 p q) 1).isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  show max (aarr V c (((cfg1.win 0).blk t).view.emb (ix2 p q)) + barr V c (((cfg1.win 1).blk t).view.emb (ix2 (0 : Fin 1) q))) 0 = _
  unfold Cert.Layer.biasRelu
  rw [h0, h1]

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Row `r` lies in the block of the point whose row block is `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region. -/
theorem final (c : Dev nD) : (dat1 V c).arrAt 2 cfg1.N = Cert.Layer.biasRelu (aarr V c) (barr V c) :=
  (dat1 V c).arrAt_eq_of_cover 2 _ (fun t _ => flushed_eq V c t) cover

end Cert.KernelIdeal.Region1

end
-- ==== Proof.Region2.lean ====
/-
  The second layer's dense transform as a pipelined region, the same schedule as the first layer's: ten grid points,
  point `t` reading rows `5000 t … 5000 t + 4999` of the first layer's output and the whole second weight matrix, and
  writing back the same rows of the product. Whatever the buffers hold when the region is entered (`V`), the product
  array ends holding `Layer.transform` of the two arrays as entered: each point writes back the restriction of that one
  function to its rows, and the ten blocks of rows cover the array.
-/
import proofs.«131243_j43903155699851_1_alg».proof.Proof.Gen.KernelIdeal.Frame
import proofs.«131243_j43903155699851_1_alg».proof.Proof.Pay
import proofs.«131243_j43903155699851_1_alg».proof.Proof.Layer

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input block moves with the product block along the rows, the weight block
    stays at the origin, and there are ten row blocks. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The first layer's output and the second weight matrix as the region finds them. -/
abbrev xarr (c : Dev nD) : Vec Ideal S50000x128 .f32 := V c main_v46
abbrev warr (c : Dev nD) : Vec Ideal S128x128 .f32 := V c main_v48

/-- What point `t` writes back is block `t` of the product of the arrays as entered. -/
theorem flushed_eq (c : Dev nD) (t : Fin cfg2.N) :
    (dat2 V c).flushed 2 t = ((cfg2.win 2).blk t).view.read (Elt Ideal) (Cert.Layer.transform (xarr V c) (warr V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q) = Cert.Layer.transform (xarr V c) (warr V c) (((cfg2.win 2).blk t).view.emb (ix2 p q))
  refine (Pay.mm2 (iblk2 V c 0 t) (iblk2 V c 1 t) p q).trans ?_
  have h0 : ∀ k : Fin 128, ((cfg2.win 0).blk t).view.emb (ix2 p k)
      = ix2 (⟨(((cfg2.win 2).blk t).view.emb (ix2 p q) 0).val, (((cfg2.win 2).blk t).view.emb (ix2 p q) 0).isLt⟩ : Fin 50000) k := by
    intro k; funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ∀ k : Fin 128, ((cfg2.win 1).blk t).view.emb (ix2 k q)
      = ix2 k (⟨(((cfg2.win 2).blk t).view.emb (ix2 p q) 1).val, (((cfg2.win 2).blk t).view.emb (ix2 p q) 1).isLt⟩ : Fin 128) := by
    intro k; funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  show ∑ k : Fin 128, xarr V c (((cfg2.win 0).blk t).view.emb (ix2 p k)) * warr V c (((cfg2.win 1).blk t).view.emb (ix2 k q)) = _
  unfold Cert.Layer.transform
  exact Finset.sum_congr rfl fun k _ => by rw [h0 k, h1 k]

/-- An index of the product array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- Row `r` lies in the block of the point whose row block is `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The product array after the region. -/
theorem final (c : Dev nD) : (dat2 V c).arrAt 2 cfg2.N = Cert.Layer.transform (xarr V c) (warr V c) :=
  (dat2 V c).arrAt_eq_of_cover 2 _ (fun t _ => flushed_eq V c t) cover

end Cert.KernelIdeal.Region2

end
-- ==== Proof.Region3.lean ====
/-
  The second layer's bias-and-clamp as a pipelined region, the same schedule as the first layer's: ten grid points,
  point `t` reading rows `5000 t … 5000 t + 4999` of the second aggregated array and the whole second bias row, and
  writing back the same rows of `max (a + b) 0` into the result. Whatever the buffers hold when the region is entered
  (`V`), the result array ends holding `Layer.biasRelu` of the two arrays as entered: the operation is entry by entry,
  so each point writes back the restriction of that one function to its rows, and the ten blocks of rows cover the
  array.
-/
import proofs.«131243_j43903155699851_1_alg».proof.Proof.Gen.KernelIdeal.Frame
import proofs.«131243_j43903155699851_1_alg».proof.Proof.Pay
import proofs.«131243_j43903155699851_1_alg».proof.Proof.Layer

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregated block moves with the result block along the rows, the bias row
    stays at the origin, and there are ten row blocks. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- The second aggregated array and the second bias row as the region finds them. -/
abbrev aarr (c : Dev nD) : Vec Ideal S50000x128 .f32 := V c main_v61
abbrev barr (c : Dev nD) : Vec Ideal S1x128 .f32 := V c main_v64

/-- What point `t` writes back is block `t` of the biased and clamped array. -/
theorem flushed_eq (c : Dev nD) (t : Fin cfg3.N) :
    (dat3 V c).flushed 2 t = ((cfg3.win 2).blk t).view.read (Elt Ideal) (Cert.Layer.biasRelu (aarr V c) (barr V c)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k3_pay1 (F := Ideal) (iblk3 V c 1 t) (iblk3 V c 0 t) (ix2 p q) = Cert.Layer.biasRelu (aarr V c) (barr V c) (((cfg3.win 2).blk t).view.emb (ix2 p q))
  refine (Pay.br3 (iblk3 V c 1 t) (iblk3 V c 0 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (0 : Fin 1) (⟨(((cfg3.win 2).blk t).view.emb (ix2 p q) 1).val, (((cfg3.win 2).blk t).view.emb (ix2 p q) 1).isLt⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  show max (aarr V c (((cfg3.win 0).blk t).view.emb (ix2 p q)) + barr V c (((cfg3.win 1).blk t).view.emb (ix2 (0 : Fin 1) q))) 0 = _
  unfold Cert.Layer.biasRelu
  rw [h0, h1]

/-- An index of the result array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v65).slice (win3_2.rect t)).set ↔ _
  rw [View.set_slice_whole, Rect.mem_set_unit]
  exact Iff.rfl

/-- Row `r` lies in the block of the point whose row block is `r / 5000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the region. -/
theorem final (c : Dev nD) : (dat3 V c).arrAt 2 cfg3.N = Cert.Layer.biasRelu (aarr V c) (barr V c) :=
  (dat3 V c).arrAt_eq_of_cover 2 _ (fun t _ => flushed_eq V c t) cover

end Cert.KernelIdeal.Region3

end
-- ==== Proof.LibHostDot.lean ====
/-
  The host's matrix product with ONE contracted axis and no batch axis, read at an entry at the ideal values: for any
  dimension-numbers record whose axis lists are the stated ones (a printed record satisfies each hypothesis by `rfl`),
  an `M × K` operand contracted on its last axis against a `K × N` operand contracted on its first is, at entry
  (a, b), the sum over the contracted coordinate `c` of the left entry (a, c) times the right entry (c, b): rows by
  columns, with no accumulator. It is the same sum a `tpu.matmul` into the zero accumulator computes (LibDot).
-/
import proofs.«131243_j43903155699851_1_alg».proof.Proof.LibDot

noncomputable section

open scoped BigOperators

namespace Cert.LibHostDot

open Idealize.ShloMosaic Idealize.ShloMosaic.ValueIdx

/-- Rows by columns on the host: the product's entry (a, b) is the sum over `c` of `A (a, c) * B (c, b)`. -/
theorem dotGeneral_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  simp only [Host.dotGeneral]
  rw [Ideal.dotGeneral_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := Cert.LibDot.rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibHostDot

end
-- ==== Proof.RefDense.lean ====
/-
  The reference's two dense stages per layer, as the same whole-array functions the kernel regions compute.

  The host's `dot_general` of the node features with a weight matrix is `Layer.transform`: entry (n, j) is the sum
  over `k` of `x (n, k) * w (k, j)`. The host's bias step — the layer's bias row cut out of the bias array, flattened,
  laid out again as a row, spread over all rows, added, and the maximum with the zero constant taken — is
  `Layer.biasRelu` of the aggregated array and that cut-out row: flattening a `[1, 128]` row and laying it out again
  as a row gives the row back, entry by entry.
-/
import proofs.«131243_j43903155699851_1_alg».proof.Proof.Gen.ReferenceIdeal.Read
import proofs.«131243_j43903155699851_1_alg».proof.Proof.LibHostDot
import proofs.«131243_j43903155699851_1_alg».proof.Proof.Layer

noncomputable section

open scoped BigOperators

namespace Cert.ReferenceIdeal.Dense

open Cert.ReferenceIdeal Cert.ReferenceIdeal.Read Idealize.ShloMosaic Idealize.ShloMosaic.ValueIdx

/-- The host's product of `[50000, 128]` by `[128, 128]` is the transform. -/
theorem dot_eq (x : FVec Ideal S50000x128 .f32) (w : FVec Ideal S128x128 .f32) :
    Host.dotGeneral (F := Ideal) dot_S50000x128_S128x128_S50000x128_1_0_0_1_n_n none x w = Cert.Layer.transform x w := by
  funext i
  obtain ⟨n, j, rfl⟩ : ∃ (n : Fin 50000) (j : Fin 128), i = ix2 n j := ⟨i 0, i 1, eq_ix2 i⟩
  exact Cert.LibHostDot.dotGeneral_10_apply dot_S50000x128_S128x128_S50000x128_1_0_0_1_n_n rfl rfl rfl rfl rfl rfl none x w n j

/-- The first layer's product stage. -/
theorem v30_eq (x : (⟨S50000x128, .f32⟩ : BufTy).Contents (Elt Ideal)) (Wt : (⟨S2x128x128, .f32⟩ : BufTy).Contents (Elt Ideal)) :
    val_main_v30 (F := Ideal) x Wt = Cert.Layer.transform x (val_main_v29 (F := Ideal) Wt) := by
  unfold val_main_v30
  exact dot_eq _ _

/-- The second layer's product stage. -/
theorem v51_eq (x : (⟨S50000x128, .f32⟩ : BufTy).Contents (Elt Ideal)) (e : (⟨S2x800000, .i32⟩ : BufTy).Contents (Elt Ideal))
    (Wt : (⟨S2x128x128, .f32⟩ : BufTy).Contents (Elt Ideal)) (bs : (⟨S2x128, .f32⟩ : BufTy).Contents (Elt Ideal)) :
    val_main_v51 (F := Ideal) x e Wt bs = Cert.Layer.transform (val_main_v48 (F := Ideal) x e Wt bs) (val_main_v50 (F := Ideal) Wt) := by
  unfold val_main_v51
  exact dot_eq _ _

/-- The first layer's bias stage. -/
theorem v48_eq (x : (⟨S50000x128, .f32⟩ : BufTy).Contents (Elt Ideal)) (e : (⟨S2x800000, .i32⟩ : BufTy).Contents (Elt Ideal))
    (Wt : (⟨S2x128x128, .f32⟩ : BufTy).Contents (Elt Ideal)) (bs : (⟨S2x128, .f32⟩ : BufTy).Contents (Elt Ideal)) :
    val_main_v48 (F := Ideal) x e Wt bs = Cert.Layer.biasRelu (val_main_v42 (F := Ideal) x e Wt) (val_main_v43 (F := Ideal) bs) := by
  funext i
  obtain ⟨n, j, rfl⟩ : ∃ (n : Fin 50000) (j : Fin 128), i = ix2 n j := ⟨i 0, i 1, eq_ix2 i⟩
  rw [val_main_v48_apply, val_main_v47_apply, val_main_v46_apply, val_main_v45_apply, val_main_v44_apply,
    val_main_call0_v0_apply, val_main_call0_cst_apply, Cert.Layer.biasRelu_ix2]
  have hi : idx_main_v44 (idx_main_v45 (idx_main_v46 (ix2 n j))) = ix2 (0 : Fin 1) j := funext fun a => Fin.ext (by
    match a with
    | ⟨0, _⟩ => rfl
    | ⟨1, _⟩ => show j.val % 128 = j.val; exact Nat.mod_eq_of_lt j.isLt)
  rw [hi]
  show max (_ + _) (Ideal.ofBits .f32 0x00000000#32) = _
  rw [Ideal.ofBits_zero_f32]

/-- The second layer's bias stage. -/
theorem v69_eq (x : (⟨S50000x128, .f32⟩ : BufTy).Contents (Elt Ideal)) (e : (⟨S2x800000, .i32⟩ : BufTy).Contents (Elt Ideal))
    (Wt : (⟨S2x128x128, .f32⟩ : BufTy).Contents (Elt Ideal)) (bs : (⟨S2x128, .f32⟩ : BufTy).Contents (Elt Ideal)) :
    val_main_v69 (F := Ideal) x e Wt bs = Cert.Layer.biasRelu (val_main_v63 (F := Ideal) x e Wt bs) (val_main_v64 (F := Ideal) bs) := by
  funext i
  obtain ⟨n, j, rfl⟩ : ∃ (n : Fin 50000) (j : Fin 128), i = ix2 n j := ⟨i 0, i 1, eq_ix2 i⟩
  rw [val_main_v69_apply, val_main_v68_apply, val_main_v67_apply, val_main_v66_apply, val_main_v65_apply,
    val_main_call1_v0_apply, val_main_call1_cst_apply, Cert.Layer.biasRelu_ix2]
  have hi : idx_main_v65 (idx_main_v66 (idx_main_v67 (ix2 n j))) = ix2 (0 : Fin 1) j := funext fun a => Fin.ext (by
    match a with
    | ⟨0, _⟩ => rfl
    | ⟨1, _⟩ => show j.val % 128 = j.val; exact Nat.mod_eq_of_lt j.isLt)
  rw [hi]
  show max (_ + _) (Ideal.ofBits .f32 0x00000000#32) = _
  rw [Ideal.ofBits_zero_f32]

end Cert.ReferenceIdeal.Dense

end
-- ==== Proof.KernelValue.lean ====
/-
  The kernel program's buffers at each boundary between its segments, as stages of the reference.

  The program is four pipelined regions among four stretches of host operations. Its buffers after each segment are a
  fold from the launch memory; this module reads, boundary by boundary, every buffer a later segment still needs, and
  finds each equal to the stage of the reference that holds the same quantity:
  * after the first stretch: the edge sources and targets with the self loops appended, the symmetric normalization
    coefficient per edge, and the first weight matrix — the same host operations of the same arguments;
  * after the first region: the node features times the first weight matrix (the region's array is the product of the
    arrays as entered; the host's `dot_general` is the same sum);
  * after the second stretch: the aggregation over the edges of that product — gather at the sources, scale, scatter-add
    at the targets, the same operations on equal operands — and the first bias row (cut out, flattened and laid out again
    as a row, which is the row itself);
  * after the second region: the first layer's output, `max (aggregated + bias) 0`;
  * and the same four steps once more for the second layer, whose last region writes the result.
  A buffer no segment in between writes keeps its contents from boundary to boundary.
-/
import proofs.«131243_j43903155699851_1_alg».proof.Proof.Gen.KernelIdeal.Frame
import proofs.«131243_j43903155699851_1_alg».proof.Proof.Gen.ReferenceIdeal.Read
import proofs.«131243_j43903155699851_1_alg».proof.Proof.Region0
import proofs.«131243_j43903155699851_1_alg».proof.Proof.Region1
import proofs.«131243_j43903155699851_1_alg».proof.Proof.Region2
import proofs.«131243_j43903155699851_1_alg».proof.Proof.Region3
import proofs.«131243_j43903155699851_1_alg».proof.Proof.RefDense
import Idealize.ShloMosaic.Lib.StableHlo.Run

set_option maxRecDepth 16384
set_option maxHeartbeats 4000000

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch of host operations -/

theorem b1_arg0 : W1 m ρ c (Proc.devRef .tc main_arg0) = (m ((c : Thread nD τ).loc main_arg0)) := by
  unfold W1
  after_results_simp <;> rfl
theorem b1_arg2 : W1 m ρ c (Proc.devRef .tc main_arg2) = (m ((c : Thread nD τ).loc main_arg2)) := by
  unfold W1
  after_results_simp <;> rfl
theorem b1_arg3 : W1 m ρ c (Proc.devRef .tc main_arg3) = (m ((c : Thread nD τ).loc main_arg3)) := by
  unfold W1
  after_results_simp <;> rfl
/-- Edge sources, self loops appended. -/
theorem b1_v3 : W1 m ρ c (Proc.devRef .tc main_v3) = val_main_v3 (F := Ideal) (m ((c : Thread nD τ).loc main_arg1)) := by
  unfold W1
  after_results_simp <;> rfl
/-- Edge targets, self loops appended. -/
theorem b1_v6 : W1 m ρ c (Proc.devRef .tc main_v6) = val_main_v6 (F := Ideal) (m ((c : Thread nD τ).loc main_arg1)) := by
  unfold W1
  after_results_simp <;> rfl
/-- The normalization coefficient per edge. -/
theorem b1_v27 : W1 m ρ c (Proc.devRef .tc main_v27) = val_main_v27 (F := Ideal) (m ((c : Thread nD τ).loc main_arg1)) := by
  unfold W1
  after_results_simp <;> rfl
/-- The first weight matrix. -/
theorem b1_v29 : W1 m ρ c (Proc.devRef .tc main_v29) = val_main_v29 (F := Ideal) (m ((c : Thread nD τ).loc main_arg2)) := by
  unfold W1
  after_results_simp <;> rfl

/-! ## After the first region: the first product -/

theorem b2_v30 : W2 m ρ c (Proc.devRef .tc main_v30) = val_main_v30 (F := Ideal) (m ((c : Thread nD τ).loc main_arg0)) (m ((c : Thread nD τ).loc main_arg2)) := by
  refine (W2_arr m ρ c 2).trans ((Region0.final (V1 m ρ) c).trans ?_)
  rw [Cert.ReferenceIdeal.Dense.v30_eq]
  show Cert.Layer.transform (W1 m ρ c (Proc.devRef .tc main_arg0)) (W1 m ρ c (Proc.devRef .tc main_v29)) = _
  rw [b1_arg0, b1_v29]
theorem b2_arg2 : W2 m ρ c (Proc.devRef .tc main_arg2) = (m ((c : Thread nD τ).loc main_arg2)) :=
  (W2_of_ne m ρ c main_arg2 (by decide)).trans (b1_arg2 m ρ c)
theorem b2_arg3 : W2 m ρ c (Proc.devRef .tc main_arg3) = (m ((c : Thread nD τ).loc main_arg3)) :=
  (W2_of_ne m ρ c main_arg3 (by decide)).trans (b1_arg3 m ρ c)
theorem b2_v3 : W2 m ρ c (Proc.devRef .tc main_v3) = val_main_v3 (F := Ideal) (m ((c : Thread nD τ).loc main_arg1)) :=
  (W2_of_ne m ρ c main_v3 (by decide)).trans (b1_v3 m ρ c)
theorem b2_v6 : W2 m ρ c (Proc.devRef .tc main_v6) = val_main_v6 (F := Ideal) (m ((c : Thread nD τ).loc main_arg1)) :=
  (W2_of_ne m ρ c main_v6 (by decide)).trans (b1_v6 m ρ c)
theorem b2_v27 : W2 m ρ c (Proc.devRef .tc main_v27) = val_main_v27 (F := Ideal) (m ((c : Thread nD τ).loc main_arg1)) :=
  (W2_of_ne m ρ c main_v27 (by decide)).trans (b1_v27 m ρ c)

/-! ## After the second stretch: the first aggregation and the first bias row -/

theorem b3_v42 : W3 m ρ c (Proc.devRef .tc main_v42) = val_main_v42 (F := Ideal) (m ((c : Thread nD τ).loc main_arg0)) (m ((c : Thread nD τ).loc main_arg1)) (m ((c : Thread nD τ).loc main_arg2)) := by
  unfold W3
  after_results_simp
  rw [b2_v6, b2_v30, b2_v3, b2_v27]
  rfl
theorem b3_v45 : W3 m ρ c (Proc.devRef .tc main_v45) = val_main_v43 (F := Ideal) (m ((c : Thread nD τ).loc main_arg3)) := by
  unfold W3
  after_results
  rw [b2_arg3]
  show shapeCast S1x128 (shapeCast S128 (extractStridedSlice S1x128 ![0, 0] (m ((c : Thread nD τ).loc main_arg3)) slices_S2x128_S1x128_0_0) shapeCasts_S1x128_S128) shapeCasts_S128_S1x128 = _
  rw [shapeCast_shapeCast]
  rfl
theorem b3_arg2 : W3 m ρ c (Proc.devRef .tc main_arg2) = (m ((c : Thread nD τ).loc main_arg2)) := by
  unfold W3
  after_results_simp
  exact b2_arg2 m ρ c
theorem b3_arg3 : W3 m ρ c (Proc.devRef .tc main_arg3) = (m ((c : Thread nD τ).loc main_arg3)) := by
  unfold W3
  after_results_simp
  exact b2_arg3 m ρ c
theorem b3_v3 : W3 m ρ c (Proc.devRef .tc main_v3) = val_main_v3 (F := Ideal) (m ((c : Thread nD τ).loc main_arg1)) := by
  unfold W3
  after_results_simp
  exact b2_v3 m ρ c
theorem b3_v6 : W3 m ρ c (Proc.devRef .tc main_v6) = val_main_v6 (F := Ideal) (m ((c : Thread nD τ).loc main_arg1)) := by
  unfold W3
  after_results_simp
  exact b2_v6 m ρ c
theorem b3_v27 : W3 m ρ c (Proc.devRef .tc main_v27) = val_main_v27 (F := Ideal) (m ((c : Thread nD τ).loc main_arg1)) := by
  unfold W3
  after_results_simp
  exact b2_v27 m ρ c

/-! ## After the second region: the first layer's output -/

theorem b4_v46 : W4 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Region1.final (V3 m ρ) c).trans ?_)
  rw [Cert.ReferenceIdeal.Dense.v48_eq]
  show Cert.Layer.biasRelu (W3 m ρ c (Proc.devRef .tc main_v42)) (W3 m ρ c (Proc.devRef .tc main_v45)) = _
  rw [b3_v42, b3_v45]
theorem b4_arg2 : W4 m ρ c (Proc.devRef .tc main_arg2) = (m ((c : Thread nD τ).loc main_arg2)) :=
  (W4_of_ne m ρ c main_arg2 (by decide)).trans (b3_arg2 m ρ c)
theorem b4_arg3 : W4 m ρ c (Proc.devRef .tc main_arg3) = (m ((c : Thread nD τ).loc main_arg3)) :=
  (W4_of_ne m ρ c main_arg3 (by decide)).trans (b3_arg3 m ρ c)
theorem b4_v3 : W4 m ρ c (Proc.devRef .tc main_v3) = val_main_v3 (F := Ideal) (m ((c : Thread nD τ).loc main_arg1)) :=
  (W4_of_ne m ρ c main_v3 (by decide)).trans (b3_v3 m ρ c)
theorem b4_v6 : W4 m ρ c (Proc.devRef .tc main_v6) = val_main_v6 (F := Ideal) (m ((c : Thread nD τ).loc main_arg1)) :=
  (W4_of_ne m ρ c main_v6 (by decide)).trans (b3_v6 m ρ c)
theorem b4_v27 : W4 m ρ c (Proc.devRef .tc main_v27) = val_main_v27 (F := Ideal) (m ((c : Thread nD τ).loc main_arg1)) :=
  (W4_of_ne m ρ c main_v27 (by decide)).trans (b3_v27 m ρ c)

/-! ## After the third stretch: the second weight matrix -/

theorem b5_v48 : W5 m ρ c (Proc.devRef .tc main_v48) = val_main_v50 (F := Ideal) (m ((c : Thread nD τ).loc main_arg2)) := by
  unfold W5
  after_results
  rw [b4_arg2]
  rfl
theorem b5_v46 : W5 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) := by
  unfold W5
  after_results_simp
  exact b4_v46 m ρ c
theorem b5_arg3 : W5 m ρ c (Proc.devRef .tc main_arg3) = (m ((c : Thread nD τ).loc main_arg3)) := by
  unfold W5
  after_results_simp
  exact b4_arg3 m ρ c
theorem b5_v3 : W5 m ρ c (Proc.devRef .tc main_v3) = val_main_v3 (F := Ideal) (m ((c : Thread nD τ).loc main_arg1)) := by
  unfold W5
  after_results_simp
  exact b4_v3 m ρ c
theorem b5_v6 : W5 m ρ c (Proc.devRef .tc main_v6) = val_main_v6 (F := Ideal) (m ((c : Thread nD τ).loc main_arg1)) := by
  unfold W5
  after_results_simp
  exact b4_v6 m ρ c
theorem b5_v27 : W5 m ρ c (Proc.devRef .tc main_v27) = val_main_v27 (F := Ideal) (m ((c : Thread nD τ).loc main_arg1)) := by
  unfold W5
  after_results_simp
  exact b4_v27 m ρ c

/-! ## After the third region: the second product -/

theorem b6_v49 : W6 m ρ c (Proc.devRef .tc main_v49) = val_main_v51 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Region2.final (V5 m ρ) c).trans ?_)
  rw [Cert.ReferenceIdeal.Dense.v51_eq]
  show Cert.Layer.transform (W5 m ρ c (Proc.devRef .tc main_v46)) (W5 m ρ c (Proc.devRef .tc main_v48)) = _
  rw [b5_v46, b5_v48]
theorem b6_arg3 : W6 m ρ c (Proc.devRef .tc main_arg3) = (m ((c : Thread nD τ).loc main_arg3)) :=
  (W6_of_ne m ρ c main_arg3 (by decide)).trans (b5_arg3 m ρ c)
theorem b6_v3 : W6 m ρ c (Proc.devRef .tc main_v3) = val_main_v3 (F := Ideal) (m ((c : Thread nD τ).loc main_arg1)) :=
  (W6_of_ne m ρ c main_v3 (by decide)).trans (b5_v3 m ρ c)
theorem b6_v6 : W6 m ρ c (Proc.devRef .tc main_v6) = val_main_v6 (F := Ideal) (m ((c : Thread nD τ).loc main_arg1)) :=
  (W6_of_ne m ρ c main_v6 (by decide)).trans (b5_v6 m ρ c)
theorem b6_v27 : W6 m ρ c (Proc.devRef .tc main_v27) = val_main_v27 (F := Ideal) (m ((c : Thread nD τ).loc main_arg1)) :=
  (W6_of_ne m ρ c main_v27 (by decide)).trans (b5_v27 m ρ c)

/-! ## After the fourth stretch: the second aggregation and the second bias row -/

theorem b7_v61 : W7 m ρ c (Proc.devRef .tc main_v61) = val_main_v63 (F := Ideal) (m ((c : Thread nD τ).loc main_arg0)) (m ((c : Thread nD τ).loc main_arg1)) (m ((c : Thread nD τ).loc main_arg2)) (m ((c : Thread nD τ).loc main_arg3)) := by
  unfold W7
  after_results_simp
  rw [b6_v6, b6_v49, b6_v3, b6_v27]
  rfl
theorem b7_v64 : W7 m ρ c (Proc.devRef .tc main_v64) = val_main_v64 (F := Ideal) (m ((c : Thread nD τ).loc main_arg3)) := by
  unfold W7
  after_results
  rw [b6_arg3]
  show shapeCast S1x128 (shapeCast S128 (extractStridedSlice S1x128 ![1, 0] (m ((c : Thread nD τ).loc main_arg3)) slices_S2x128_S1x128_1_0) shapeCasts_S1x128_S128) shapeCasts_S128_S1x128 = _
  rw [shapeCast_shapeCast]
  rfl

/-! ## After the fourth region: the result -/

/-- The kernel program's result buffer at the end of the run is the reference's last stage of the launch arguments. -/
theorem result : W8 m ρ c (Proc.devRef .tc main_v65) = val_main_v69 (F := Ideal) (m ((c : Thread nD τ).loc main_arg0)) (m ((c : Thread nD τ).loc main_arg1)) (m ((c : Thread nD τ).loc main_arg2)) (m ((c : Thread nD τ).loc main_arg3)) := by
  refine (W8_arr m ρ c 2).trans ((Region3.final (V7 m ρ) c).trans ?_)
  rw [Cert.ReferenceIdeal.Dense.v69_eq]
  show Cert.Layer.biasRelu (W7 m ρ c (Proc.devRef .tc main_v61)) (W7 m ρ c (Proc.devRef .tc main_v64)) = _
  rw [b7_v61, b7_v64]

end Cert.KernelIdeal.Stages

end
-- ==== Proof.lean ====
/-
  Two stacked graph-convolution layers with a clamp at zero: the kernel program against its reference, over the
  extended reals.

  Both programs build, on the host and by the same operations, the edge list with a self loop per node, the degree of
  every node, and the coefficient `deg(src)^(-1/2) * deg(dst)^(-1/2)` of every edge. A layer then is: the node
  features times the layer's weight matrix; for every edge, the product's row at the source scaled by the edge's
  coefficient and added into the row of the target; the layer's bias row added to every row; the maximum with zero.
  The reference does all of it on the host. The kernel program does the product and the bias-and-clamp step as pipelined
  kernels over ten blocks of 5000 rows, rounding the product's operands to bf16 first — a change of float format, which
  at the ideal values is the identity — and the sum over the feature axis is the same sum in either program; the
  gather, scale and scatter-add in between are the reference's own host operations, applied to operands that are equal
  by then, so no law of the extended reals is needed beyond reading each dense stage entry by entry, and the
  precondition is never opened.

  The result buffer of the kernel program is read off its run boundary by boundary (Proof/KernelValue.lean, over
  Proof/KernelRun.lean's run and Proof/Region0 … Region3's arrays); the reference's run and its stages are generated.
-/
import proofs.«131243_j43903155699851_1_alg».proof.Defs
import proofs.«131243_j43903155699851_1_alg».proof.Proof.Gen.Kernel
import proofs.«131243_j43903155699851_1_alg».proof.Proof.Gen.Kernel.Frame
import proofs.«131243_j43903155699851_1_alg».proof.Proof.Gen.KernelIdeal
import proofs.«131243_j43903155699851_1_alg».proof.Proof.Gen.KernelIdeal.Frame
import proofs.«131243_j43903155699851_1_alg».proof.Proof.Gen.ReferenceIdeal
import proofs.«131243_j43903155699851_1_alg».proof.Proof.Gen.ReferenceIdeal.Run
import proofs.«131243_j43903155699851_1_alg».proof.Proof.Gen.ReferenceIdeal.Read
import proofs.«131243_j43903155699851_1_alg».proof.Proof.Gen.Pre_finite_inputs
import proofs.«131243_j43903155699851_1_alg».proof.Proof.KernelRun
import proofs.«131243_j43903155699851_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program at the ideal values. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- From memories that agree on the four arguments both programs end with the same result: the reference's last stage
    of the arguments. The kernel program's result buffer is that stage (`Stages.result`), and the reference's run ends at
    it by construction. -/
theorem algebraic : Cert.algebraic_KernelIdeal_ReferenceIdeal := by
  intro m ρ m' ρ' _ hagree
  refine ⟨fun c => Cert.ReferenceIdeal.Read.val_main_v69 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Stages.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v69_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
